-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x8192 : Shape := ⟨3, ![1, 1, 8192]⟩
abbrev S1x8192 : Shape := ⟨2, ![1, 8192]⟩
abbrev S1024x3 : Shape := ⟨2, ![1024, 3]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩
abbrev S8192 : Shape := ⟨1, ![8192]⟩
abbrev S4x8192 : Shape := ⟨2, ![4, 8192]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg1 : BitVec 32 := BitVec.ofNat 32 (i 1).val
  let c1024_i32 : BitVec 32 := 1024#32
  let v28 : BitVec 32 := Scalar.muli arg1 c1024_i32
  v28
def k0_mult2 (i : grid0.Coords) : BitVec 32 :=
  let arg2 : BitVec 32 := BitVec.ofNat 32 (i 2).val
  let c1024_i32_13 : BitVec 32 := 1024#32
  let v30 : BitVec 32 := Scalar.muli arg2 c1024_i32_13
  v30
def k0_off1 (i : grid0.Coords) : Fin 2 → Nat :=
  let c0_14 : Index := 0#32
  let arg1 : BitVec 32 := BitVec.ofNat 32 (i 1).val
  let c1024_i32 : BitVec 32 := 1024#32
  let v28 : BitVec 32 := Scalar.muli arg1 c1024_i32
  let v29 : BitVec 32 := v28
  let v32 : Index := Scalar.indexCast v29
  ![0, v32.toNat]
def k0_off2 (i : grid0.Coords) : Fin 2 → Nat :=
  let c0_16 : Index := 0#32
  let arg2 : BitVec 32 := BitVec.ofNat 32 (i 2).val
  let c1024_i32_13 : BitVec 32 := 1024#32
  let v30 : BitVec 32 := Scalar.muli arg2 c1024_i32_13
  let v31 : BitVec 32 := v30
  let v40 : Index := Scalar.indexCast v31
  ![0, v40.toNat]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let arg2 : BitVec 32 := BitVec.ofNat 32 (i 2).val
  let c7_i32_18 : BitVec 32 := 7#32
  let v49 : BitVec 1 := Scalar.cmpi .eq arg2 c7_i32_18
  let v50 : BitVec 1 := Scalar.andi v48 v49
  let v51 : BitVec 32 := Scalar.extui v50
  let c0_i32_19 : BitVec 32 := 0#32
  let v52 : BitVec 1 := Scalar.cmpi .ne v51 c0_i32_19
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x3_p1_0_S3x1024 : S1024x3.Transposes [1, 0] S3x1024
  broadcasts_S1024x1_S1024x1024 : S1024x1.Broadcasts S1024x1024
  transposes_S1024x1_p1_0_S1x1024 : S1024x1.Transposes [1, 0] S1x1024
  broadcasts_S1x1024_S1024x1024 : S1x1024.Broadcasts S1024x1024
  reduces_S1024x1024_S1024 : S1024x1024.Reduces [1] S1024
  reduces_S1024x1024_S1024_2 : S1024x1024.Reduces [0] S1024
  h_S1x1024 : 0 < S1x1024.numel
  shapeCasts_S1x1024_S1024 : S1x1024.ShapeCasts S1024
  shapeCasts_S1024_S1x1024 : S1024.ShapeCasts S1x1024
  shapeCasts_S1x8192_S8192 : S1x8192.ShapeCasts S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024.size a ≤ S1x8192.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S_S4x8192x8192 : S_.BroadcastsInDim S4x8192x8192 (![] : Fin 0 → Fin S4x8192x8192.rank)
  bcast_S4x8192x1_S4x8192x8192_0_1_2 : S4x8192x1.BroadcastsInDim S4x8192x8192 (![0, 1, 2] : Fin 3 → Fin S4x8192x8192.rank)
  transposes_S4x8192x1_S4x1x8192_0_2_1 : S4x8192x1.Transposes [0, 2, 1] S4x1x8192
  bcast_S4x1x8192_S4x8192x8192_0_1_2 : S4x1x8192.BroadcastsInDim S4x8192x8192 (![0, 1, 2] : Fin 3 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the bidirectional Chamfer distance, on the extended reals, free of any program.

  For two clouds of 8192 points of dimension 3 in each of 4 batches, `dist b n m` is the clamped squared distance
  `max (|p₁ₙ|² − 2·⟨p₁ₙ, p₂ₘ⟩ + |p₂ₘ|², 0)` between point `n` of the first cloud and point `m` of the second.
  The two results are, per batch, the minimum of `dist` over `m` at each `n` (`G12`) and over `n` at each `m` (`G21`).

  A sweep visits the 8 × 8 tiles of 1024 × 1024 pairs in row-major order; step `k` visits tile `(k / 8, k % 8)`.
  `acc12lt b k` is the minimum, at each `n`, over the `m` whose tile with `n` is among the first `k` visited, and `acc21lt`
  likewise at each `m` over the `n`. Before the first step both are `⊤` (a minimum over nothing); one step takes the
  minimum with the visited tile's row (column) minimum on the 1024 indices the tile meets and leaves the others; after
  all 64 steps every pair has been visited, so they are `G12` and `G21`.
-/
import Idealize.ShloMosaic.PureOps.Ideal
import Idealize.ShloMosaic.PureOps.Ideal.Laws
import Idealize.ShloMosaic.Lib.ValueIdx
import Mathlib.Order.Fin.Basic
import Mathlib.Data.Finset.Lattice.Fold
import Mathlib.Data.Finset.Fold

noncomputable section

namespace Cert.Chamfer

open Idealize.ShloMosaic Idealize.ShloMosaic.ValueIdx

/-- A cloud array: batch, point, coordinate. -/
abbrev SP : Shape := ⟨3, ![4, 8192, 3]⟩
/-- A per-point result: batch, point. -/
abbrev SD : Shape := ⟨2, ![4, 8192]⟩
/-- A running minimum over one batch: one row of 8192. -/
abbrev SA : Shape := ⟨2, ![1, 8192]⟩

/-- The scale of the cross term, the f32 pattern of 2.0 (never evaluated: both programs carry it). -/
abbrev two : EReal := Ideal.ofBits .f32 0x40000000#32

/-- The squared norm of point `n` of batch `b`. -/
def sq (P : SP.Idx → EReal) (b : Fin 4) (n : Fin 8192) : EReal :=
  ∑ k : Fin 3, P (ix3 b n k) * P (ix3 b n k)

/-- The inner product of point `n` of the first cloud with point `m` of the second. -/
def dot (P1 P2 : SP.Idx → EReal) (b : Fin 4) (n m : Fin 8192) : EReal :=
  ∑ k : Fin 3, P1 (ix3 b n k) * P2 (ix3 b m k)

/-- The clamped squared distance. -/
def dist (P1 P2 : SP.Idx → EReal) (b : Fin 4) (n m : Fin 8192) : EReal :=
  max (sq P1 b n - two * dot P1 P2 b n m + sq P2 b m) 0

/-- Nearest squared distance from each point of the first cloud to the second. -/
def G12 (P1 P2 : SP.Idx → EReal) : SD.Idx → EReal := fun j =>
  Finset.univ.inf fun m : Fin 8192 => dist P1 P2 (j 0) (j 1) m

/-- Nearest squared distance from each point of the second cloud to the first. -/
def G21 (P1 P2 : SP.Idx → EReal) : SD.Idx → EReal := fun j =>
  Finset.univ.inf fun n : Fin 8192 => dist P1 P2 (j 0) n (j 1)

/-- The minimum of row `n` over column tile `mi`. -/
def rowTileMin (P1 P2 : SP.Idx → EReal) (b : Fin 4) (n : Fin 8192) (mi : ℕ) (hmi : mi < 8) : EReal :=
  Finset.univ.inf fun q : Fin 1024 => dist P1 P2 b n ⟨mi * 1024 + q.val, by have := q.isLt; omega⟩

/-- The minimum of column `m` over row tile `ni`. -/
def colTileMin (P1 P2 : SP.Idx → EReal) (b : Fin 4) (ni : ℕ) (hni : ni < 8) (m : Fin 8192) : EReal :=
  Finset.univ.inf fun p : Fin 1024 => dist P1 P2 b ⟨ni * 1024 + p.val, by have := p.isLt; omega⟩ m

/-- Row minima over the pairs whose tile is among the first `k` of the sweep. -/
def acc12lt (P1 P2 : SP.Idx → EReal) (b : Fin 4) (k : ℕ) : SA.Idx → EReal := fun y =>
  (Finset.univ.filter fun m : Fin 8192 => ((y 1).val / 1024) * 8 + m.val / 1024 < k).inf fun m => dist P1 P2 b (y 1) m

/-- Column minima over the pairs whose tile is among the first `k` of the sweep. -/
def acc21lt (P1 P2 : SP.Idx → EReal) (b : Fin 4) (k : ℕ) : SA.Idx → EReal := fun y =>
  (Finset.univ.filter fun n : Fin 8192 => (n.val / 1024) * 8 + (y 1).val / 1024 < k).inf fun n => dist P1 P2 b n (y 1)

/-- A scalar. -/
abbrev S0 : Shape := ⟨0, ![]⟩

/-- What both programs return: the mean of each result over its 4 × 8192 entries (a sum from the pattern of 0 divided
    by the pattern of 32768), the two means added. The two shape facts are the programs' own. -/
def meanSum (hR : SD.ReducesTo [0, 1] S0) (h0 : 0 < S0.numel) (d12 d21 : FVec Ideal SD .f32) : FVec Ideal S0 .f32 :=
  addf (Host.divf (Host.reduceAdd d12 (constant (F := Ideal) S0 .f32 0x00000000#32) hR h0) (constant (F := Ideal) S0 .f32 0x47000000#32))
    (Host.divf (Host.reduceAdd d21 (constant (F := Ideal) S0 .f32 0x00000000#32) hR h0) (constant (F := Ideal) S0 .f32 0x47000000#32))

variable (P1 P2 : SP.Idx → EReal) (b : Fin 4)

/-! ## Folds of `min` are infima; the three literals -/

/-- A fold of `min` from `⊤` is the infimum. -/
theorem fold_min_top_eq_inf {ι : Type} (s : Finset ι) (f : ι → EReal) : s.fold min ⊤ f = s.inf f := by
  -- Both sides are the greatest lower bound of the values of `f` on `s`: they have the same lower bounds.
  refine eq_of_forall_le_iff fun c => ?_
  rw [Finset.le_fold_min, Finset.le_inf_iff]
  exact ⟨fun h => h.2, fun h => ⟨le_top, h⟩⟩

/-- The f32 pattern of `+∞` is `⊤`. -/
theorem ofBits_pinf : Ideal.ofBits .f32 0x7F800000#32 = (⊤ : EReal) := by
  -- Sign 0, exponent field all ones, significand field 0.
  simp [Ideal.ofBits, Ideal.ieee]

/-- The f32 pattern of −2.0 is the negation of that of 2.0. -/
theorem ofBits_neg_two : Ideal.ofBits .f32 0xC0000000#32 = -two := by
  -- The two patterns differ in the sign bit only: exponent field 128, significand field 0.
  simp [Ideal.ofBits, Ideal.ieee]

/-- Adding the cross term scaled by −2 is subtracting it scaled by 2: on every extended real. -/
theorem add_neg_two_mul (a d : EReal) : a + (-two) * d = a - two * d := by
  rw [neg_mul, sub_eq_add_neg]

/-! ## The sweep, one step at a time -/

/-- The indices counted below `k + 1` are those counted below `k` and those counted exactly `k`. -/
private theorem inf_filter_succ (p : Fin 8192 → ℕ) (g : Fin 8192 → EReal) (k : ℕ) :
    (Finset.univ.filter fun m : Fin 8192 => p m < k + 1).inf g
      = min ((Finset.univ.filter fun m : Fin 8192 => p m < k).inf g)
          ((Finset.univ.filter fun m : Fin 8192 => p m = k).inf g) := by
  rw [← Finset.inf_union]
  congr 1
  ext m
  simp only [Finset.mem_filter, Finset.mem_univ, true_and, Finset.mem_union]
  omega

/-- The indices of tile `t` are `t * 1024 + q` for `q < 1024`. -/
private theorem inf_filter_tile (g : Fin 8192 → EReal) (t : ℕ) (ht : t < 8) :
    (Finset.univ.filter fun m : Fin 8192 => m.val / 1024 = t).inf g
      = Finset.univ.inf fun q : Fin 1024 => g ⟨t * 1024 + q.val, by have := q.isLt; omega⟩ := by
  apply le_antisymm
  · refine Finset.le_inf fun q _ => Finset.inf_le ?_
    have := q.isLt
    simp only [Finset.mem_filter, Finset.mem_univ, true_and]
    omega
  · refine Finset.le_inf fun m hm => ?_
    simp only [Finset.mem_filter, Finset.mem_univ, true_and] at hm
    have hlt := m.isLt
    have hq : m.val % 1024 < 1024 := Nat.mod_lt _ (by decide)
    have hm' : (⟨t * 1024 + (⟨m.val % 1024, hq⟩ : Fin 1024).val, by omega⟩ : Fin 8192) = m := by
      apply Fin.ext
      show t * 1024 + m.val % 1024 = m.val
      omega
    have := Finset.inf_le (f := fun q : Fin 1024 => g ⟨t * 1024 + q.val, by have := q.isLt; omega⟩)
      (Finset.mem_univ (⟨m.val % 1024, hq⟩ : Fin 1024))
    rw [hm'] at this
    exact this

theorem acc12lt_zero (y : SA.Idx) : acc12lt P1 P2 b 0 y = ⊤ := by
  -- No tile comes before the first: a minimum over nothing.
  unfold acc12lt
  rw [Finset.filter_false_of_mem (fun m _ => Nat.not_lt_zero _), Finset.inf_empty]

theorem acc21lt_zero (y : SA.Idx) : acc21lt P1 P2 b 0 y = ⊤ := by
  unfold acc21lt
  rw [Finset.filter_false_of_mem (fun n _ => Nat.not_lt_zero _), Finset.inf_empty]

/-- Step `k` visits tile `(k / 8, k % 8)`: a row of row tile `k / 8` takes the minimum with its minimum over the tile. -/
theorem acc12lt_succ_in (k : ℕ) (hk : k < 64) (y : SA.Idx) (hy : (y 1).val / 1024 = k / 8) :
    acc12lt P1 P2 b (k + 1) y = min (acc12lt P1 P2 b k y) (rowTileMin P1 P2 b (y 1) (k % 8) (Nat.mod_lt _ (by decide))) := by
  unfold acc12lt rowTileMin
  rw [inf_filter_succ]
  congr 1
  -- In row tile `k / 8` the tile visited at step `k` is column tile `k % 8`.
  rw [← inf_filter_tile (fun m => dist P1 P2 b (y 1) m) (k % 8) (Nat.mod_lt _ (by decide))]
  congr 1
  apply Finset.filter_congr
  intro m _
  rw [hy]
  omega

/-- Any other row is left. -/
theorem acc12lt_succ_out (k : ℕ) (hk : k < 64) (y : SA.Idx) (hy : (y 1).val / 1024 ≠ k / 8) :
    acc12lt P1 P2 b (k + 1) y = acc12lt P1 P2 b k y := by
  unfold acc12lt
  rw [inf_filter_succ]
  -- Step `k` visits row tile `k / 8` only: no pair of this row is visited.
  rw [Finset.filter_false_of_mem (s := Finset.univ) (p := fun m : Fin 8192 => (y 1).val / 1024 * 8 + m.val / 1024 = k)
    (fun m _ => by have := m.isLt; omega), Finset.inf_empty, min_top_right]

/-- A column of column tile `k % 8` takes the minimum with its minimum over the tile. -/
theorem acc21lt_succ_in (k : ℕ) (hk : k < 64) (y : SA.Idx) (hy : (y 1).val / 1024 = k % 8) :
    acc21lt P1 P2 b (k + 1) y = min (acc21lt P1 P2 b k y) (colTileMin P1 P2 b (k / 8) (by omega) (y 1)) := by
  unfold acc21lt colTileMin
  rw [inf_filter_succ]
  congr 1
  -- In column tile `k % 8` the tile visited at step `k` is row tile `k / 8`.
  rw [← inf_filter_tile (fun n => dist P1 P2 b n (y 1)) (k / 8) (by omega)]
  congr 1
  apply Finset.filter_congr
  intro n _
  rw [hy]
  omega

/-- Any other column is left. -/
theorem acc21lt_succ_out (k : ℕ) (hk : k < 64) (y : SA.Idx) (hy : (y 1).val / 1024 ≠ k % 8) :
    acc21lt P1 P2 b (k + 1) y = acc21lt P1 P2 b k y := by
  unfold acc21lt
  rw [inf_filter_succ]
  -- Step `k` visits column tile `k % 8` only: no pair of this column is visited.
  have hy1 := idx2_lt1 y
  rw [Finset.filter_false_of_mem (s := Finset.univ) (p := fun n : Fin 8192 => n.val / 1024 * 8 + (y 1).val / 1024 = k)
    (fun n _ => by have := n.isLt; omega), Finset.inf_empty, min_top_right]

/-- After the 64 steps every pair has been visited. -/
theorem acc12lt_full (y : SA.Idx) : acc12lt P1 P2 b 64 y = G12 P1 P2 (ix2 b (y 1)) := by
  unfold acc12lt
  have hy1 := idx2_lt1 y
  -- Both tile coordinates are at most 7, so every tile is among the 64.
  rw [Finset.filter_true_of_mem (fun m _ => by have := m.isLt; omega)]
  rfl

theorem acc21lt_full (y : SA.Idx) : acc21lt P1 P2 b 64 y = G21 P1 P2 (ix2 b (y 1)) := by
  unfold acc21lt
  have hy1 := idx2_lt1 y
  rw [Finset.filter_true_of_mem (fun n _ => by have := n.isLt; omega)]
  rfl

end Cert.Chamfer

end
-- ==== Proof.Pay.lean ====
/-
  The body's arithmetic read at an index, on the extended reals.

  From the step's two input blocks `x0`, `x1` (1024 points of each cloud) the body forms the 1024 × 1024 tile of
  clamped squared distances (`k0_pay7`), its column minima (`k0_pay8`) and, folded into the previous values of the
  first row's slice, its row minima (`k0_pay9`). The remaining payloads only reshape, take an entrywise minimum, or
  splat `+∞`.
-/
import proofs.«131622_j73160472920067_1_alg».proof.Proof.Gen.KernelIdeal.Skeleton
import proofs.«131622_j73160472920067_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pay

open Cert.KernelIdeal Cert.KernelIdeal.Gen Cert.Chamfer

/-! ## The layout operations of the tile, read at explicit coordinates -/

/-- A block of one batch read as a matrix of points by coordinates. -/
private theorem points_apply {α : Type} (x : S1x1024x3.Idx → α) (p : Fin 1024) (k : Fin 3) :
    shapeCast S1024x3 x shapeCasts_S1x1024x3_S1024x3 (ix2 p k) = x (ix3 (0 : Fin 1) p k) :=
  shapeCast_1ab_ab_apply x _ p k

/-- A vector of 1024 read as a column: the entry of row `p`. -/
private theorem column_apply {α : Type} (v : S1024.Idx → α) (p : Fin 1024) (u : Fin 1) :
    shapeCast S1024x1 v shapeCasts_S1024_S1024x1 (ix2 p u) = v (ix1 p) :=
  shapeCast_apply v _ _ _ (by
    have hu : u.val = 0 := by omega
    rw [Shape.rowMajor_val_one, Shape.rowMajor_val_two]
    show p.val = p.val * 1 + u.val
    rw [hu, Nat.mul_one, Nat.add_zero])

/-- A column repeated along the rows reads its own row. -/
private theorem columnBroadcast_apply {α : Type} (v : S1024x1.Idx → α) (p q : Fin 1024) :
    broadcastTo S1024x1024 v broadcasts_S1024x1_S1024x1024 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A row repeated down the columns reads its own column. -/
private theorem rowBroadcast_apply {α : Type} (v : S1x1024.Idx → α) (p q : Fin 1024) :
    broadcastTo S1024x1024 v broadcasts_S1x1024_S1024x1024 (ix2 p q) = v (ix2 (0 : Fin 1) q) :=
  broadcastTo_1b_ab_apply v _ p q

/-- The transposed matrix of points. -/
private theorem pointsT_apply {α : Type} (v : S1024x3.Idx → α) (k : Fin 3) (q : Fin 1024) :
    transpose S3x1024 [1, 0] v transposes_S1024x3_p1_0_S3x1024 (ix2 k q) = v (ix2 q k) :=
  transpose_ix2_apply v _ k q

/-- A column transposed to a row. -/
private theorem columnT_apply {α : Type} (v : S1024x1.Idx → α) (u : Fin 1) (q : Fin 1024) :
    transpose S1x1024 [1, 0] v transposes_S1024x1_p1_0_S1x1024 (ix2 u q) = v (ix2 q u) :=
  transpose_ix2_apply v _ u q

/-- The sum over the three coordinates of a point. -/
private theorem laneSum_apply (y : FVec Ideal S1024x3 .f32) (p : Fin 1024) :
    multiReduction (F := Ideal) .add [1] S1024 y 0x00000000#32 reduces_S1024x3_S1024 (.inl rfl) rfl (ix1 p)
      = ∑ k : Fin 3, (y (ix2 p k) : EReal) := by
  refine (Ideal.multiReduction_add_single y _ reduces_S1024x3_S1024 _ _ (ix1 p)).trans ?_
  exact Finset.sum_congr rfl fun k _ => congrArg y (funext fun a => Fin.ext (by
    match a with
    | ⟨0, _⟩ => rfl
    | ⟨1, _⟩ => rfl))

/-! ## The product of the two blocks, read at an index -/

private theorem lhs_tile_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
private theorem lhs_tile_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
private theorem rhs_tile_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
private theorem rhs_tile_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The matrix product into the zero tile: entry `(p, q)` is the inner product of row `p` with column `q`. -/
private theorem product_apply (a : FVec Ideal S1024x3 .f32) (b : FVec Ideal S3x1024 .f32) (p q : Fin 1024) :
    matmul dot_S1024x3_S3x1024_S1024x1024_1_0_0_1_n_n none a b (constant (F := Ideal) S1024x1024 .f32 0x00000000#32) (ix2 p q)
      = ∑ k : Fin 3, (a (ix2 p k) : EReal) * b (ix2 k q) := by
  simp only [matmul]
  rw [Ideal.matmul_constant_zero_apply, ← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 p q) ((ValueIdx.contrEquiv1 dot_S1024x3_S3x1024_S1024x1024_1_0_0_1_n_n 3 rfl rfl).symm k) = ix2 p k := funext fun ax => Fin.ext (by
    match ax with
    | ⟨0, _⟩ => exact lhs_tile_0 _ _
    | ⟨1, _⟩ => exact (lhs_tile_1 _ _).trans hk)
  have er : dot_S1024x3_S3x1024_S1024x1024_1_0_0_1_n_n.rhsIdx (ix2 p q) ((ValueIdx.contrEquiv1 dot_S1024x3_S3x1024_S1024x1024_1_0_0_1_n_n 3 rfl rfl).symm k) = ix2 k q := funext fun ax => Fin.ext (by
    match ax with
    | ⟨0, _⟩ => exact (rhs_tile_0 _ _).trans hk
    | ⟨1, _⟩ => exact rhs_tile_1 _ _)
  rw [el, er]

/-- The inner products of the points of the first block with those of the second. -/
private theorem cross_apply (x0 x1 : FVec Ideal S1x1024x3 .f32) (p q : Fin 1024) :
    matmul dot_S1024x3_S3x1024_S1024x1024_1_0_0_1_n_n none (shapeCast S1024x3 x0 shapeCasts_S1x1024x3_S1024x3)
        (transpose S3x1024 [1, 0] (shapeCast S1024x3 x1 shapeCasts_S1x1024x3_S1024x3) transposes_S1024x3_p1_0_S3x1024)
        (constant (F := Ideal) S1024x1024 .f32 0x00000000#32) (ix2 p q)
      = ∑ k : Fin 3, (x0 (ix3 (0 : Fin 1) p k) : EReal) * x1 (ix3 (0 : Fin 1) q k) :=
  (product_apply _ _ p q).trans (Finset.sum_congr rfl fun k _ =>
    congrArg₂ (· * ·) (points_apply x0 p k) ((pointsT_apply _ k q).trans (points_apply x1 q k)))

/-- The squared norms of the points of a block. -/
private theorem sqnorm_apply (x : FVec Ideal S1x1024x3 .f32) (p : Fin 1024) :
    multiReduction (F := Ideal) .add [1] S1024
        (mulf (shapeCast S1024x3 x shapeCasts_S1x1024x3_S1024x3) (shapeCast S1024x3 x shapeCasts_S1x1024x3_S1024x3))
        0x00000000#32 reduces_S1024x3_S1024 (.inl rfl) rfl (ix1 p)
      = ∑ k : Fin 3, (x (ix3 (0 : Fin 1) p k) : EReal) * x (ix3 (0 : Fin 1) p k) :=
  (laneSum_apply _ p).trans (Finset.sum_congr rfl fun k _ =>
    congrArg₂ (· * ·) (points_apply x p k) (points_apply x p k))

/-- One entry of the distance tile: row point `p` of the first block against row point `q` of the second. -/
theorem pay7_apply (x0 x1 : Vec Ideal S1x1024x3 .f32) (p q : Fin 1024) :
    k0_pay7 (F := Ideal) x0 x1 (ix2 p q)
      = max ((∑ k : Fin 3, (x0 (ix3 (0 : Fin 1) p k) : EReal) * x0 (ix3 (0 : Fin 1) p k))
              - two * (∑ k : Fin 3, (x0 (ix3 (0 : Fin 1) p k) : EReal) * x1 (ix3 (0 : Fin 1) q k))
              + ∑ k : Fin 3, (x1 (ix3 (0 : Fin 1) q k) : EReal) * x1 (ix3 (0 : Fin 1) q k)) 0 := by
  unfold k0_pay7
  simp only [maximumf_apply, addf_apply, subf_apply, mulf_apply, broadcast_apply]
  rw [columnBroadcast_apply, column_apply, sqnorm_apply, cross_apply, rowBroadcast_apply, columnT_apply, column_apply,
    sqnorm_apply]
  exact congrArg (max _) Ideal.ofBits_zero_f32

/-! ## The minima of the tile -/

/-- A minimum over one axis from `+∞` is the infimum over that axis's coordinates. -/
private theorem minReduce_apply {s t : Shape} {a : Fin s.rank} (src : FVec Ideal s .f32) (h : s.Reduces [a] t)
    (hφ : FKind.Formats .f32) (hacc : (0x7F800000#32 : BitVec FTy.f32.bits) = FKind.minimumf.neutral .f32 hφ) (j : t.Idx) :
    multiReduction (F := Ideal) .minimumf [a] t src 0x7F800000#32 h hφ hacc j
      = Finset.univ.inf fun k : Fin (s.size a) => (src (h.lift j k) : EReal) := by
  rw [multiReduction_minimumf_eq_fold]
  refine (h.fold_filter_drop_single _ _ src j).trans ?_
  show Finset.univ.fold min (Ideal.ofBits .f32 0x7F800000#32) (src ∘ h.lift j) = _
  rw [ofBits_pinf]
  exact fold_min_top_eq_inf _ _

/-- The minimum down a column of a tile. -/
private theorem colMin_apply (T : FVec Ideal S1024x1024 .f32) (q : Fin 1024) :
    multiReduction (F := Ideal) .minimumf [0] S1024 T 0x7F800000#32 reduces_S1024x1024_S1024_2 (.inl rfl) rfl (ix1 q)
      = Finset.univ.inf fun p : Fin 1024 => (T (ix2 p q) : EReal) := by
  refine (minReduce_apply T reduces_S1024x1024_S1024_2 _ _ (ix1 q)).trans ?_
  exact Finset.inf_congr rfl fun p _ => congrArg T (funext fun ax => Fin.ext (by
    match ax with
    | ⟨0, _⟩ => rfl
    | ⟨1, _⟩ => rfl))

/-- The minimum along a row of a tile. -/
private theorem rowMin_apply (T : FVec Ideal S1024x1024 .f32) (p : Fin 1024) :
    multiReduction (F := Ideal) .minimumf [1] S1024 T 0x7F800000#32 reduces_S1024x1024_S1024 (.inl rfl) rfl (ix1 p)
      = Finset.univ.inf fun q : Fin 1024 => (T (ix2 p q) : EReal) := by
  refine (minReduce_apply T reduces_S1024x1024_S1024 _ _ (ix1 p)).trans ?_
  exact Finset.inf_congr rfl fun q _ => congrArg T (funext fun ax => Fin.ext (by
    match ax with
    | ⟨0, _⟩ => rfl
    | ⟨1, _⟩ => rfl))

/-- The tile's column minima. -/
theorem pay8_apply (x0 x1 : Vec Ideal S1x1024x3 .f32) (q : Fin 1024) :
    k0_pay8 (F := Ideal) x0 x1 (ix1 q) = Finset.univ.inf fun p : Fin 1024 => (k0_pay7 (F := Ideal) x0 x1 (ix2 p q) : EReal) := by
  unfold k0_pay8
  exact colMin_apply _ q

/-- The tile's row minima, folded into the slice's previous values. -/
theorem pay9_apply (x0 x1 : Vec Ideal S1x1024x3 .f32) (v33 : Vec Ideal S1x1024 .f32) (p : Fin 1024) :
    k0_pay9 (F := Ideal) x0 x1 v33 (ix1 p)
      = min (v33 (ix2 (0 : Fin 1) p) : EReal) (Finset.univ.inf fun q : Fin 1024 => (k0_pay7 (F := Ideal) x0 x1 (ix2 p q) : EReal)) := by
  unfold k0_pay9
  simp only [minimumf_apply]
  rw [shapeCast_1a_a_apply, rowMin_apply]

/-- A row of 1024 as a 1 × 1024 block. -/
theorem pay1_apply {F : FTy → Type} [FloatOps F] (v35 : FVec F S1024 .f32) (p : Fin 1024) :
    k0_pay1 v35 (ix2 (0 : Fin 1) p) = v35 (ix1 p) := by
  unfold k0_pay1
  exact shapeCast_a_1a_apply v35 _ (0 : Fin 1) p

/-- The entrywise minimum of the second row's slice with the column minima. -/
theorem pay2_apply (v27 : FVec Ideal S1024 .f32) (v41 : Vec Ideal S1x1024 .f32) (q : Fin 1024) :
    k0_pay2 (F := Ideal) v27 v41 (ix2 (0 : Fin 1) q) = min (v41 (ix2 (0 : Fin 1) q) : EReal) (v27 (ix1 q)) := by
  unfold k0_pay2
  refine (shapeCast_a_1a_apply _ _ (0 : Fin 1) q).trans ?_
  simp only [minimumf_apply]
  rw [shapeCast_1a_a_apply]

/-- A 1 × 8192 row as a 1 × 1 × 8192 block, through the flat vector of 8192. -/
private theorem rowBlock_apply {α : Type} (v : S1x8192.Idx → α) (n : Fin 8192) :
    shapeCast S1x1x8192 (shapeCast S8192 v shapeCasts_S1x8192_S8192) shapeCasts_S8192_S1x1x8192
        (ix3 (0 : Fin 1) (0 : Fin 1) n) = v (ix2 (0 : Fin 1) n) := by
  refine (shapeCast_apply _ shapeCasts_S8192_S1x1x8192 (ix3 (0 : Fin 1) (0 : Fin 1) n) (ix1 n) ?_).trans
    (shapeCast_1a_a_apply v _ n)
  rw [Shape.rowMajor_val_one, Shape.rowMajor_val_three]
  show n.val = (0 * 1 + 0) * 8192 + n.val
  omega

/-- A 1 × 8192 row as a 1 × 1 × 8192 block. -/
theorem pay3_apply {F : FTy → Type} [FloatOps F] (v53 : Vec F S1x8192 .f32) (n : Fin 8192) :
    k0_pay3 v53 (ix3 (0 : Fin 1) (0 : Fin 1) n) = v53 (ix2 (0 : Fin 1) n) := by
  unfold k0_pay3
  exact rowBlock_apply v53 n

theorem pay4_apply {F : FTy → Type} [FloatOps F] (v58 : Vec F S1x8192 .f32) (n : Fin 8192) :
    k0_pay4 v58 (ix3 (0 : Fin 1) (0 : Fin 1) n) = v58 (ix2 (0 : Fin 1) n) := by
  unfold k0_pay4
  exact rowBlock_apply v58 n

/-- The fill is `⊤` everywhere. -/
theorem pay5_apply (y : S1x8192.Idx) : (k0_pay5 (F := Ideal) y : EReal) = ⊤ := by
  unfold k0_pay5
  rw [shapeCast_self]
  exact ofBits_pinf

theorem pay6_apply (y : S1x8192.Idx) : (k0_pay6 (F := Ideal) y : EReal) = ⊤ := by
  unfold k0_pay6
  rw [shapeCast_self]
  exact ofBits_pinf

end Cert.KernelIdeal.Pay

end
-- ==== Proof.Blocks.lean ====
/-
  Where a step's blocks sit in the two clouds. The grid's 256 points are numbered batch-major: point `t` is step
  `t % 64` of batch `t / 64`, and step `k` works on row tile `k / 8` of the first cloud against column tile `k % 8` of
  the second. So entry `(p, q)` of the step's distance tile is the clamped squared distance between point
  `1024·(k / 8) + p` of the first cloud and point `1024·(k % 8) + q` of the second, in that batch.
-/
import proofs.«131622_j73160472920067_1_alg».proof.Proof.Gen.KernelIdeal.Frame
import proofs.«131622_j73160472920067_1_alg».proof.Proof.Spec
import proofs.«131622_j73160472920067_1_alg».proof.Proof.Pay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Chamfer

variable (m : (ℓ : Loc nD τ sig) → Buf (Elt Ideal) ℓ)

/-- The two clouds as the region finds them. -/
abbrev arr0 (c : Dev nD) : Vec Ideal S4x8192x3 .f32 := V m c main_arg0
abbrev arr1 (c : Dev nD) : Vec Ideal S4x8192x3 .f32 := V m c main_arg1
/-- The step's two input blocks. -/
abbrev xblk0 (c : Dev nD) (t : Fin cfg0.N) : Vec Ideal S1x1024x3 .f32 := iblk m c 0 t
abbrev xblk1 (c : Dev nD) (t : Fin cfg0.N) : Vec Ideal S1x1024x3 .f32 := iblk m c 1 t

theorem arr0_eq (c : Dev nD) : arr0 m c = m ((c : Thread nD τ).loc main_arg0) := V_main_arg0 m c
theorem arr1_eq (c : Dev nD) : arr1 m c = m ((c : Thread nD τ).loc main_arg1) := V_main_arg1 m c

theorem N_eq : cfg0.N = 256 := N_0

/-- The batch of point `t`. -/
def bOf (t : Fin cfg0.N) : Fin 4 := ⟨t.val / 64 % 4, Nat.mod_lt _ (by decide)⟩

/-- The point of the first cloud that row `p` of step `t`'s tile is, -/
def rowOf (t : Fin cfg0.N) (p : Fin 1024) : Fin 8192 :=
  ⟨(t.val % 64 / 8) * 1024 + p.val, by have := p.isLt; omega⟩
/-- and the point of the second that column `q` is. -/
def colOf (t : Fin cfg0.N) (q : Fin 1024) : Fin 8192 :=
  ⟨(t.val % 8) * 1024 + q.val, by have := q.isLt; omega⟩

/-- The grid coordinates of point `t`, in closed form. -/
theorem coords0 (t : Fin cfg0.N) : ((grid0.coords t) 0).val = t.val / 64 :=
  (by decide +kernel : ∀ t : Fin grid0.N, ((grid0.coords t) 0).val = t.val / 64) t
theorem coords1 (t : Fin cfg0.N) : ((grid0.coords t) 1).val = t.val % 64 / 8 :=
  (by decide +kernel : ∀ t : Fin grid0.N, ((grid0.coords t) 1).val = t.val % 64 / 8) t
theorem coords2 (t : Fin cfg0.N) : ((grid0.coords t) 2).val = t.val % 8 :=
  (by decide +kernel : ∀ t : Fin grid0.N, ((grid0.coords t) 2).val = t.val % 8) t

/-- The block indices of the two input windows at point `t`, in closed form. -/
private theorem index0 : ∀ t : Fin grid0.N,
    win0_0.index t 0 = t.val / 64 ∧ win0_0.index t 1 = t.val % 64 / 8 ∧ win0_0.index t 2 = 0 := by
  decide +kernel
private theorem index1 : ∀ t : Fin grid0.N,
    win0_1.index t 0 = t.val / 64 ∧ win0_1.index t 1 = t.val % 8 ∧ win0_1.index t 2 = 0 := by
  decide +kernel

/-- The first cloud's block at step `t` is rows `1024·(t % 64 / 8) …` of batch `t / 64`. -/
theorem xblk0_apply (c : Dev nD) (t : Fin cfg0.N) (p : Fin 1024) (k : Fin 3) :
    xblk0 m c t (ix3 (0 : Fin 1) p k) = arr0 m c (ix3 (bOf t) (rowOf t p) k) := by
  have hN : t.val < 256 := lt_of_lt_of_eq t.isLt N_eq
  obtain ⟨h0, h1, h2⟩ := index0 t
  -- both sides read the same array; on each axis the block's element sits at block index × block size + its own
  -- coordinate: batch `t / 64` (below 4, so the `% 4` is idle), row `1024·(t % 64 / 8) + p`, coordinate `k`
  show iblk m c 0 t (ix3 (0 : Fin 1) p k) = V m c main_arg0 (ix3 (bOf t) (rowOf t p) k)
  unfold iblk
  rw [View.read_apply]
  show V m c main_arg0 _ = V m c main_arg0 _
  congr 1
  funext a
  apply Fin.ext
  match a with
  | ⟨0, _⟩ =>
    show win0_0.index t 0 * 1 + 1 * (0 : Fin 1).val = t.val / 64 % 4
    rw [h0]; simp only [Fin.val_zero]; omega
  | ⟨1, _⟩ =>
    show win0_0.index t 1 * 1024 + 1 * p.val = t.val % 64 / 8 * 1024 + p.val
    rw [h1]; omega
  | ⟨2, _⟩ =>
    show win0_0.index t 2 * 3 + 1 * k.val = k.val
    rw [h2]; omega

/-- The second cloud's block at step `t` is rows `1024·(t % 8) …` of the same batch. -/
theorem xblk1_apply (c : Dev nD) (t : Fin cfg0.N) (q : Fin 1024) (k : Fin 3) :
    xblk1 m c t (ix3 (0 : Fin 1) q k) = arr1 m c (ix3 (bOf t) (colOf t q) k) := by
  have hN : t.val < 256 := lt_of_lt_of_eq t.isLt N_eq
  obtain ⟨h0, h1, h2⟩ := index1 t
  -- as for the first cloud, with the column tile `t % 8` in place of the row tile
  show iblk m c 1 t (ix3 (0 : Fin 1) q k) = V m c main_arg1 (ix3 (bOf t) (colOf t q) k)
  unfold iblk
  rw [View.read_apply]
  show V m c main_arg1 _ = V m c main_arg1 _
  congr 1
  funext a
  apply Fin.ext
  match a with
  | ⟨0, _⟩ =>
    show win0_1.index t 0 * 1 + 1 * (0 : Fin 1).val = t.val / 64 % 4
    rw [h0]; simp only [Fin.val_zero]; omega
  | ⟨1, _⟩ =>
    show win0_1.index t 1 * 1024 + 1 * q.val = t.val % 8 * 1024 + q.val
    rw [h1]; omega
  | ⟨2, _⟩ =>
    show win0_1.index t 2 * 3 + 1 * k.val = k.val
    rw [h2]; omega

/-- An entry of the step's distance tile is `dist` at the pair it stands for. -/
theorem tile_dist (c : Dev nD) (t : Fin cfg0.N) (p q : Fin 1024) :
    (k0_pay7 (F := Ideal) (xblk0 m c t) (xblk1 m c t) (ix2 p q) : EReal)
      = dist (arr0 m c) (arr1 m c) (bOf t) (rowOf t p) (colOf t q) := by
  have hA : (∑ k : Fin 3, (xblk0 m c t (ix3 (0 : Fin 1) p k) : EReal) * xblk0 m c t (ix3 (0 : Fin 1) p k))
      = sq (arr0 m c) (bOf t) (rowOf t p) :=
    Finset.sum_congr rfl fun k _ => by rw [xblk0_apply m c t p k]
  have hB : (∑ k : Fin 3, (xblk0 m c t (ix3 (0 : Fin 1) p k) : EReal) * xblk1 m c t (ix3 (0 : Fin 1) q k))
      = dot (arr0 m c) (arr1 m c) (bOf t) (rowOf t p) (colOf t q) :=
    Finset.sum_congr rfl fun k _ => by rw [xblk0_apply m c t p k, xblk1_apply m c t q k]
  have hC : (∑ k : Fin 3, (xblk1 m c t (ix3 (0 : Fin 1) q k) : EReal) * xblk1 m c t (ix3 (0 : Fin 1) q k))
      = sq (arr1 m c) (bOf t) (colOf t q) :=
    Finset.sum_congr rfl fun k _ => by rw [xblk1_apply m c t q k]
  -- the tile's entry is `max (|x|² − 2·⟨x, y⟩ + |y|², 0)` of the two block rows, which are the clouds' points
  rw [Cert.KernelIdeal.Pay.pay7_apply, hA, hB, hC]
  rfl

end Cert.KernelIdeal.Blocks

end
-- ==== Proof.Pieces.lean ====
/-
  What each control case of the sweep's body leaves in its two running-minimum rows and, at a batch's last step, in
  the two output blocks — as pure functions of the step's two input blocks and of what the rows held before.

  Step `(b, ni, mi)` rewrites the 1024 entries `[1024·ni, 1024·ni + 1024)` of the first row (`upd0`) and the 1024
  entries `[1024·mi, 1024·mi + 1024)` of the second (`upd1`), each from its own previous values there, and leaves every
  other entry. A batch's first step does the same over rows it has just filled with the `+∞` pattern; its last step
  also copies the two updated rows, reshaped, into the output blocks.
-/
import proofs.«131622_j73160472920067_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

variable {F : FTy → Type} [FloatOps F]

/-- The 1024 entries of a row that tile `ti` meets. -/
def rowSlice (xs : Vec F S1x8192 .f32) (ti : ℕ) : Vec F S1x1024 .f32 := fun x =>
  xs (ix2 (0 : Fin 1) (⟨(ti * 1024 + (x 1).val) % 8192, Nat.mod_lt _ (by decide)⟩ : Fin 8192))

/-- The first row after a step at grid point `i`: entries of row tile `i 1` recomputed from the two input blocks and
    their own previous values, the others kept. -/
def upd0 (i : grid0.Coords) (x0 x1 : Vec F S1x1024x3 .f32) (xs0 : Vec F S1x8192 .f32) : Vec F S1x8192 .f32 := fun y =>
  if (y 1).val / 1024 = (i 1).val then
    k0_pay1 (k0_pay9 x0 x1 (rowSlice xs0 (i 1).val)) (ix2 (0 : Fin 1) (⟨(y 1).val % 1024, Nat.mod_lt _ (by decide)⟩ : Fin 1024))
  else xs0 y

/-- The second row after the step: entries of column tile `i 2` recomputed, the others kept. -/
def upd1 (i : grid0.Coords) (x0 x1 : Vec F S1x1024x3 .f32) (xs1 : Vec F S1x8192 .f32) : Vec F S1x8192 .f32 := fun y =>
  if (y 1).val / 1024 = (i 2).val then
    k0_pay2 (k0_pay8 x0 x1) (rowSlice xs1 (i 2).val) (ix2 (0 : Fin 1) (⟨(y 1).val % 1024, Nat.mod_lt _ (by decide)⟩ : Fin 1024))
  else xs1 y

/-! ## The tile offsets in closed form, and reads under one store -/

/-- Tile `a` of 8 starts at `1024·a`: the 32-bit product does not wrap. -/
private theorem tile_word : ∀ a : Fin 8,
    (Scalar.indexCast (Scalar.muli (BitVec.ofNat 32 a.val) 1024#32)).toNat = a.val * 1024 := by decide

/-- The first row's tile starts at column `1024·i₁` of row 0. -/
private theorem off1_eq (i : grid0.Coords) : k0_off1 i = ![0, (i 1).val * 1024] :=
  congrArg (fun n : ℕ => (![0, n] : Fin 2 → ℕ)) (tile_word (i 1))

/-- The second row's tile starts at column `1024·i₂` of row 0. -/
private theorem off2_eq (i : grid0.Coords) : k0_off2 i = ![0, (i 2).val * 1024] :=
  congrArg (fun n : ℕ => (![0, n] : Fin 2 → ℕ)) (tile_word (i 2))

private theorem zero2 : (![0, 0] : Fin 2 → ℕ) = fun _ => 0 := by
  funext a; match a with | ⟨0, _⟩ => rfl | ⟨1, _⟩ => rfl

private theorem zero3 : (![0, 0, 0] : Fin 3 → ℕ) = fun _ => 0 := by
  funext a; match a with | ⟨0, _⟩ => rfl | ⟨1, _⟩ => rfl | ⟨2, _⟩ => rfl

/-- A store through the whole shape, made last, is what is read back, whatever lay under it. -/
private theorem read_whole_cons {κ : Kind} {sp : Space} {S : Shape} {e : EltTy} (v : View sig κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y hz (fun a => (Nat.zero_add _).symm)

/-- A load through the whole shape reads the contents. -/
private theorem readAt_whole {κ : Kind} {sp : Space} {S : Shape} {e : EltTy} (v : View sig κ sp S e)
    (g : v.ty.Contents (Elt F)) {off : Fin S.rank → ℕ} (hz : off = fun _ => 0) (inb : ∀ a, off a + S.size a ≤ S.size a) :
    View.readAt (Elt F) v (Rect.unit off S.size inb).toLoadRect g = v.read (Elt F) g := by
  rw [View.readAt_eq_ld, View.ld_unit_zero hz]

/-- A load of a whole input block held at contents `x` reads `x`. -/
private theorem readAt_input (m : Memref sig .tc .vmem S1x1024x3 .f32) (h : m.IsWhole) (x : Vec F S1x1024x3 .f32) :
    View.readAt (Elt F) m.view (Rect.unit ![0, 0, 0] S1x1024x3.size inb_S1x1024x3_S1x1024x3_0_0_0).toLoadRect (h.unread x) = x := by
  rw [readAt_whole m.view (h.unread x) zero3, h.read_unread]

/-- After a store of `w` into the 1024 entries of tile `t` of a row, an entry of that tile reads `w` at its place within
    the tile and every other entry reads what the earlier stores left. -/
private theorem read_tile_store {κ : Kind} {sp : Space} (v : View sig κ sp S1x8192 .f32) (f : v.ty.Contents (Elt F))
    {off : Fin 2 → ℕ} (t : ℕ) (inb : ∀ a, off a + S1x1024.size a ≤ S1x8192.size a) (w : Vec F S1x1024 .f32)
    (L : List (View.Piece (Elt F) S1x8192 .f32)) (heq : off = ![0, t * 1024]) (y : S1x8192.Idx) :
    v.read (Elt F) (v.writes (Elt F) f ((⟨Rect.unit off S1x1024.size inb, w⟩ : View.Piece (Elt F) S1x8192 .f32) :: L)) y
      = if (y 1).val / 1024 = t then
          w (ix2 (0 : Fin 1) (⟨(y 1).val % 1024, Nat.mod_lt _ (by decide)⟩ : Fin 1024))
        else v.read (Elt F) (v.writes (Elt F) f L) y := by
  have hy0 : (y 0).val < 1 := idx2_lt0 y
  by_cases hq : (y 1).val / 1024 = t
  · rw [if_pos hq]
    refine View.read_writes_cons_unit_of_mem v f inb w L y
      (ix2 (0 : Fin 1) (⟨(y 1).val % 1024, Nat.mod_lt _ (by decide)⟩ : Fin 1024)) heq ?_
    intro a
    match a with
    | ⟨0, _⟩ => show (y 0).val = 0 + 0; omega
    | ⟨1, _⟩ => show (y 1).val = t * 1024 + (y 1).val % 1024; omega
  · rw [if_neg hq]
    refine View.read_writes_cons_unit_of_not_mem v f inb w L y heq (1 : Fin 2) ?_
    show (y 1).val < t * 1024 ∨ t * 1024 + 1024 ≤ (y 1).val
    omega

/-- A load of tile `t`'s 1024 entries from a row that reads `X` is `rowSlice X t`. -/
private theorem load_tile {κ : Kind} {sp : Space} (v : View sig κ sp S1x8192 .f32) (g : v.ty.Contents (Elt F))
    (X : Vec F S1x8192 .f32) (hX : v.read (Elt F) g = X) {off : Fin 2 → ℕ} (t : ℕ) (ht : t < 8)
    (inb : ∀ a, off a + S1x1024.size a ≤ S1x8192.size a) (heq : off = ![0, t * 1024]) :
    View.readAt (Elt F) v (Rect.unit (s := S1x8192) off S1x1024.size inb).toLoadRect g = rowSlice X t := by
  subst heq
  subst hX
  rw [View.readAt_eq_ld]
  funext x
  have hx0 : (x 0).val < 1 := idx2_lt0 x
  have hx1 : (x 1).val < 1024 := idx2_lt1 x
  show v.read (Elt F) g ((Rect.unit (s := S1x8192) ![0, t * 1024] S1x1024.size inb).idx x)
    = v.read (Elt F) g (ix2 (0 : Fin 1) (⟨(t * 1024 + (x 1).val) % 8192, Nat.mod_lt _ (by decide)⟩ : Fin 8192))
  congr 1
  funext a
  refine Fin.ext ?_
  match a with
  | ⟨0, _⟩ => show 0 + 1 * (x 0).val = 0; omega
  | ⟨1, _⟩ => show t * 1024 + 1 * (x 1).val = (t * 1024 + (x 1).val) % 8192; omega

/-- THE FIRST ROW AFTER A STEP, over any view and any earlier stores that read `xs0`: the step's one store into the row,
    whose payload is computed from blocks equal to `x0`, `x1` and from the tile's previous entries, leaves `upd0`. -/
private theorem row0_read {κ : Kind} {sp : Space} (v : View sig κ sp S1x8192 .f32) (f : v.ty.Contents (Elt F))
    (L : List (View.Piece (Elt F) S1x8192 .f32)) (i : grid0.Coords) (x0 x1 a0 a1 : Vec F S1x1024x3 .f32)
    (s : Vec F S1x1024 .f32) (xs0 : Vec F S1x8192 .f32) (h0 : a0 = x0) (h1 : a1 = x1)
    (hs : s = rowSlice xs0 (i 1).val) (hL : v.read (Elt F) (v.writes (Elt F) f L) = xs0)
    (inb : ∀ a, (k0_off1 i) a + S1x1024.size a ≤ S1x8192.size a) :
    v.read (Elt F) (v.writes (Elt F) f
      ((⟨Rect.unit (k0_off1 i) S1x1024.size inb, k0_pay1 (k0_pay9 a0 a1 s)⟩ : View.Piece (Elt F) S1x8192 .f32) :: L))
      = upd0 i x0 x1 xs0 := by
  subst h0 h1 hs
  funext y
  rw [read_tile_store v f (i 1).val inb (k0_pay1 (k0_pay9 a0 a1 (rowSlice xs0 (i 1).val))) L (off1_eq i) y, hL]
  rfl

/-- THE SECOND ROW AFTER A STEP, likewise: it leaves `upd1`. -/
private theorem row1_read {κ : Kind} {sp : Space} (v : View sig κ sp S1x8192 .f32) (f : v.ty.Contents (Elt F))
    (L : List (View.Piece (Elt F) S1x8192 .f32)) (i : grid0.Coords) (x0 x1 a0 a1 : Vec F S1x1024x3 .f32)
    (s : Vec F S1x1024 .f32) (xs1 : Vec F S1x8192 .f32) (h0 : a0 = x0) (h1 : a1 = x1)
    (hs : s = rowSlice xs1 (i 2).val) (hL : v.read (Elt F) (v.writes (Elt F) f L) = xs1)
    (inb : ∀ a, (k0_off2 i) a + S1x1024.size a ≤ S1x8192.size a) :
    v.read (Elt F) (v.writes (Elt F) f
      ((⟨Rect.unit (k0_off2 i) S1x1024.size inb, k0_pay2 (k0_pay8 a0 a1) s⟩ : View.Piece (Elt F) S1x8192 .f32) :: L))
      = upd1 i x0 x1 xs1 := by
  subst h0 h1 hs
  funext y
  rw [read_tile_store v f (i 2).val inb (k0_pay2 (k0_pay8 a0 a1) (rowSlice xs1 (i 2).val)) L (off2_eq i) y, hL]
  rfl

/-! ## A batch's first step: the rows start from the `+∞` fill -/

theorem sout0_A_0_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : cond0_0 i) (hc1 : ¬cond0_1 i) (x0 x1 : Vec F S1x1024x3 .f32) :
    sout0_A_0 c i arg3 harg3 arg4 harg4 arg5 harg5 arg6 harg6 arg7 harg7 arg8 harg8 hc0 hc1 x0 x1 = upd0 i x0 x1 k0_pay5 := by
  unfold sout0_A_0
  unfold kernelRun0_A
  dsimp only
  exact row0_read VS0_0 _ [⟨Rect.unit ![0, 0] S1x8192.size inb_S1x8192_S1x8192_0_0, k0_pay5⟩] i x0 x1 _ _ _ k0_pay5
    (readAt_input arg3 harg3 x0) (readAt_input arg4 harg4 x1)
    (load_tile arg7.view _ k0_pay5 (read_whole_cons arg7.view _ zero2 inb_S1x8192_S1x8192_0_0 k0_pay5 [])
      (i 1).val (i 1).isLt _ (off1_eq i))
    (read_whole_cons VS0_0 _ zero2 inb_S1x8192_S1x8192_0_0 k0_pay5 []) _

theorem sout0_A_1_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : cond0_0 i) (hc1 : ¬cond0_1 i) (x0 x1 : Vec F S1x1024x3 .f32) :
    sout0_A_1 c i arg3 harg3 arg4 harg4 arg5 harg5 arg6 harg6 arg7 harg7 arg8 harg8 hc0 hc1 x0 x1 = upd1 i x0 x1 k0_pay6 := by
  unfold sout0_A_1
  unfold kernelRun0_A
  dsimp only
  exact row1_read VS0_1 _ [⟨Rect.unit ![0, 0] S1x8192.size inb_S1x8192_S1x8192_0_0, k0_pay6⟩] i x0 x1 _ _ _ k0_pay6
    (readAt_input arg3 harg3 x0) (readAt_input arg4 harg4 x1)
    (load_tile arg8.view _ k0_pay6 (read_whole_cons arg8.view _ zero2 inb_S1x8192_S1x8192_0_0 k0_pay6 [])
      (i 2).val (i 2).isLt _ (off2_eq i))
    (read_whole_cons VS0_1 _ zero2 inb_S1x8192_S1x8192_0_0 k0_pay6 []) _

/-! ## A middle step: the rows start from what the step before left -/

theorem sout0_B_0_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : ¬cond0_1 i) (x0 x1 : Vec F S1x1024x3 .f32) (xs0 xs1 : Vec F S1x8192 .f32) :
    sout0_B_0 c i arg3 harg3 arg4 harg4 arg5 harg5 arg6 harg6 arg7 harg7 arg8 harg8 hc0 hc1 x0 x1 xs0 xs1 = upd0 i x0 x1 xs0 := by
  unfold sout0_B_0
  unfold kernelRun0_B
  dsimp only
  exact row0_read arg7.view (harg7.unread xs0) [] i x0 x1 _ _ _ xs0 (readAt_input arg3 harg3 x0) (readAt_input arg4 harg4 x1)
    (load_tile arg7.view (harg7.unread xs0) xs0 (harg7.read_unread xs0) (i 1).val (i 1).isLt _ (off1_eq i))
    (harg7.read_unread xs0) _

theorem sout0_B_1_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : ¬cond0_1 i) (x0 x1 : Vec F S1x1024x3 .f32) (xs0 xs1 : Vec F S1x8192 .f32) :
    sout0_B_1 c i arg3 harg3 arg4 harg4 arg5 harg5 arg6 harg6 arg7 harg7 arg8 harg8 hc0 hc1 x0 x1 xs0 xs1 = upd1 i x0 x1 xs1 := by
  unfold sout0_B_1
  unfold kernelRun0_B
  dsimp only
  exact row1_read arg8.view (harg8.unread xs1) [] i x0 x1 _ _ _ xs1 (readAt_input arg3 harg3 x0) (readAt_input arg4 harg4 x1)
    (load_tile arg8.view (harg8.unread xs1) xs1 (harg8.read_unread xs1) (i 2).val (i 2).isLt _ (off2_eq i))
    (harg8.read_unread xs1) _

/-! ## A batch's last step: the same rows, and the output blocks are their reshapes -/

theorem sout0_C_0_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : cond0_1 i) (x0 x1 : Vec F S1x1024x3 .f32) (xs0 xs1 : Vec F S1x8192 .f32) :
    sout0_C_0 c i arg3 harg3 arg4 harg4 arg5 harg5 arg6 harg6 arg7 harg7 arg8 harg8 hc0 hc1 x0 x1 xs0 xs1 = upd0 i x0 x1 xs0 := by
  unfold sout0_C_0
  unfold kernelRun0_C
  dsimp only
  exact row0_read arg7.view (harg7.unread xs0) [] i x0 x1 _ _ _ xs0 (readAt_input arg3 harg3 x0) (readAt_input arg4 harg4 x1)
    (load_tile arg7.view (harg7.unread xs0) xs0 (harg7.read_unread xs0) (i 1).val (i 1).isLt _ (off1_eq i))
    (harg7.read_unread xs0) _

theorem sout0_C_1_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : cond0_1 i) (x0 x1 : Vec F S1x1024x3 .f32) (xs0 xs1 : Vec F S1x8192 .f32) :
    sout0_C_1 c i arg3 harg3 arg4 harg4 arg5 harg5 arg6 harg6 arg7 harg7 arg8 harg8 hc0 hc1 x0 x1 xs0 xs1 = upd1 i x0 x1 xs1 := by
  unfold sout0_C_1
  unfold kernelRun0_C
  dsimp only
  exact row1_read arg8.view (harg8.unread xs1) [] i x0 x1 _ _ _ xs1 (readAt_input arg3 harg3 x0) (readAt_input arg4 harg4 x1)
    (load_tile arg8.view (harg8.unread xs1) xs1 (harg8.read_unread xs1) (i 2).val (i 2).isLt _ (off2_eq i))
    (harg8.read_unread xs1) _

theorem out0_C_2_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : cond0_1 i) (x0 x1 : Vec F S1x1024x3 .f32) (xs0 xs1 : Vec F S1x8192 .f32) :
    out0_C_2 c i arg3 harg3 arg4 harg4 arg5 harg5 arg6 harg6 arg7 harg7 arg8 harg8 hc0 hc1 x0 x1 xs0 xs1 = k0_pay3 (upd0 i x0 x1 xs0) := by
  unfold out0_C_2
  unfold kernelRun0_C
  dsimp only
  refine (read_whole_cons VO0_2 _ zero3 inb_S1x1x8192_S1x1x8192_0_0_0 _ []).trans ?_
  refine congrArg k0_pay3 ?_
  refine (readAt_whole arg7.view _ zero2 inb_S1x8192_S1x8192_0_0).trans ?_
  exact row0_read arg7.view (harg7.unread xs0) [] i x0 x1 _ _ _ xs0 (readAt_input arg3 harg3 x0) (readAt_input arg4 harg4 x1)
    (load_tile arg7.view (harg7.unread xs0) xs0 (harg7.read_unread xs0) (i 1).val (i 1).isLt _ (off1_eq i))
    (harg7.read_unread xs0) _

theorem out0_C_3_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x8192 .f32) (harg5 : arg5.IsWhole) (arg6 : Memref sig .tc .vmem S1x1x8192 .f32) (harg6 : arg6.IsWhole) (arg7 : Memref sig .tc .vmem S1x8192 .f32) (harg7 : arg7.IsWhole) (arg8 : Memref sig .tc .vmem S1x8192 .f32) (harg8 : arg8.IsWhole) (hc0 : ¬cond0_0 i) (hc1 : cond0_1 i) (x0 x1 : Vec F S1x1024x3 .f32) (xs0 xs1 : Vec F S1x8192 .f32) :
    out0_C_3 c i arg3 harg3 arg4 harg4 arg5 harg5 arg6 harg6 arg7 harg7 arg8 harg8 hc0 hc1 x0 x1 xs0 xs1 = k0_pay4 (upd1 i x0 x1 xs1) := by
  unfold out0_C_3
  unfold kernelRun0_C
  dsimp only
  refine (read_whole_cons VO0_3 _ zero3 inb_S1x1x8192_S1x1x8192_0_0_0 _ []).trans ?_
  refine congrArg k0_pay4 ?_
  refine (readAt_whole arg8.view _ zero2 inb_S1x8192_S1x8192_0_0).trans ?_
  exact row1_read arg8.view (harg8.unread xs1) [] i x0 x1 _ _ _ xs1 (readAt_input arg3 harg3 x0) (readAt_input arg4 harg4 x1)
    (load_tile arg8.view (harg8.unread xs1) xs1 (harg8.read_unread xs1) (i 2).val (i 2).isLt _ (off2_eq i))
    (harg8.read_unread xs1) _

end Cert.KernelIdeal.Pieces

end
-- ==== Proof.Step.lean ====
/-
  One step of the sweep on each running-minimum row: if the row holds, before step `t % 64` of its batch, the minima
  over the pairs the earlier steps visited, then after the body's update it holds the minima over the pairs visited
  up to and including this step.
-/
import proofs.«131622_j73160472920067_1_alg».proof.Proof.Blocks
import proofs.«131622_j73160472920067_1_alg».proof.Proof.Pieces

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Step

open Cert.KernelIdeal Cert.KernelIdeal.Gen Cert.Chamfer Cert.KernelIdeal.Blocks Cert.KernelIdeal.Pieces Cert.KernelIdeal.Pay

variable (m : (ℓ : Loc nD τ sig) → Buf (Elt Ideal) ℓ)

/-- In a row of 8192, entry `1024·ti + (n mod 1024)` is entry `n` itself when `n` lies in tile `ti`. -/
private theorem slice_index (y : SA.Idx) (ti : ℕ) (hy : (y 1).val / 1024 = ti) :
    (ix2 (0 : Fin 1) (⟨(ti * 1024 + (y 1).val % 1024) % 8192, Nat.mod_lt _ (by decide)⟩ : Fin 8192) : SA.Idx) = y := by
  have h0 := idx2_lt0 y
  have h1 := idx2_lt1 y
  funext a
  match a with
  | ⟨0, _⟩ => exact Fin.ext (by show (0 : ℕ) = (y 0).val; omega)
  | ⟨1, _⟩ => exact Fin.ext (by show (ti * 1024 + (y 1).val % 1024) % 8192 = (y 1).val; omega)

theorem upd0_step (c : Dev nD) (t : Fin cfg0.N) (xs0 : Vec Ideal S1x8192 .f32)
    (h : xs0 = acc12lt (arr0 m c) (arr1 m c) (bOf t) (t.val % 64)) :
    upd0 (grid0.coords t) (xblk0 m c t) (xblk1 m c t) xs0 = acc12lt (arr0 m c) (arr1 m c) (bOf t) (t.val % 64 + 1) := by
  subst h
  funext y
  have hk : t.val % 64 < 64 := Nat.mod_lt _ (by decide)
  have hc1 := Blocks.coords1 t
  unfold Pieces.upd0
  by_cases hy : (y 1).val / 1024 = t.val % 64 / 8
  · rw [if_pos (by rw [hc1]; exact hy)]
    rw [Pay.pay1_apply, Pay.pay9_apply]
    rw [acc12lt_succ_in _ _ _ _ hk y hy]
    congr 1
    · unfold Pieces.rowSlice
      rw [hc1]
      exact congrArg _ (slice_index y _ hy)
    · unfold rowTileMin
      refine Finset.inf_congr rfl (fun q _ => ?_)
      rw [Blocks.tile_dist]
      have h1 := idx2_lt1 y
      congr 1
      · exact Fin.ext (by show t.val % 64 / 8 * 1024 + (y 1).val % 1024 = (y 1).val; omega)
      · exact Fin.ext (by show t.val % 8 * 1024 + q.val = t.val % 64 % 8 * 1024 + q.val; omega)
  · rw [if_neg (by rw [hc1]; exact hy)]
    exact (acc12lt_succ_out _ _ _ _ hk y hy).symm

theorem upd1_step (c : Dev nD) (t : Fin cfg0.N) (xs1 : Vec Ideal S1x8192 .f32)
    (h : xs1 = acc21lt (arr0 m c) (arr1 m c) (bOf t) (t.val % 64)) :
    upd1 (grid0.coords t) (xblk0 m c t) (xblk1 m c t) xs1 = acc21lt (arr0 m c) (arr1 m c) (bOf t) (t.val % 64 + 1) := by
  subst h
  funext y
  have hk : t.val % 64 < 64 := Nat.mod_lt _ (by decide)
  have hc2 := Blocks.coords2 t
  have h8 : t.val % 64 % 8 = t.val % 8 := by omega
  unfold Pieces.upd1
  by_cases hy : (y 1).val / 1024 = t.val % 64 % 8
  · rw [if_pos (by rw [hc2]; omega)]
    rw [Pay.pay2_apply, Pay.pay8_apply]
    rw [acc21lt_succ_in _ _ _ _ hk y hy]
    congr 1
    · unfold Pieces.rowSlice
      rw [hc2]
      exact congrArg _ (slice_index y _ (by omega))
    · unfold colTileMin
      refine Finset.inf_congr rfl (fun p _ => ?_)
      rw [Blocks.tile_dist]
      have h1 := idx2_lt1 y
      congr 1
      exact Fin.ext (by show t.val % 8 * 1024 + (y 1).val % 1024 = (y 1).val; omega)
  · rw [if_neg (by rw [hc2]; omega)]
    exact (acc21lt_succ_out _ _ _ _ hk y hy).symm

/-- The `+∞` fill is the minimum over no pair. -/
theorem fill0 (c : Dev nD) (b : Fin 4) : (k0_pay5 (F := Ideal) : Vec Ideal S1x8192 .f32) = acc12lt (arr0 m c) (arr1 m c) b 0 := by
  funext y
  rw [acc12lt_zero]
  exact Pay.pay5_apply y
theorem fill1 (c : Dev nD) (b : Fin 4) : (k0_pay6 (F := Ideal) : Vec Ideal S1x8192 .f32) = acc21lt (arr0 m c) (arr1 m c) b 0 := by
  funext y
  rw [acc21lt_zero]
  exact Pay.pay6_apply y

end Cert.KernelIdeal.Step

end
-- ==== Proof.Inv.lean ====
/-
  What the two running-minimum rows hold after every point of the grid, by induction on the point: after point `t`
  they are the minima over the pairs visited in the first `t % 64 + 1` steps of batch `t / 64`. At a batch's last
  point the rows are complete, and the output blocks the body fills there are the batch's rows of the two results.
-/
import proofs.«131622_j73160472920067_1_alg».proof.Proof.Step

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.Chamfer Cert.KernelIdeal.Blocks Cert.KernelIdeal.Pieces Cert.KernelIdeal.Pay Cert.KernelIdeal.Step

variable (m : (ℓ : Loc nD τ sig) → Buf (Elt Ideal) ℓ)

/-- Within a batch, a point that is not the batch's first continues the sweep of the point before: same batch, and the
    steps done before it are the steps done up to its predecessor. -/
theorem bOf_pred (n : ℕ) (h : n + 1 < cfg0.N) (h0 : ¬(n + 1) % 64 = 0) :
    bOf ⟨n, Nat.lt_of_succ_lt h⟩ = bOf ⟨n + 1, h⟩ := by
  apply Fin.ext
  show n / 64 % 4 = (n + 1) / 64 % 4
  omega

theorem step_pred (n : ℕ) (h0 : ¬(n + 1) % 64 = 0) : n % 64 + 1 = (n + 1) % 64 := by omega

/-- The rows after point `n`: the minima over the pairs visited so far in its batch. -/
theorem inv (c : Dev nD) : ∀ (n : ℕ) (h : n < cfg0.N),
    (outsAt0 m c n h).2.2.1 = acc12lt (arr0 m c) (arr1 m c) (bOf ⟨n, h⟩) (n % 64 + 1)
    ∧ (outsAt0 m c n h).2.2.2 = acc21lt (arr0 m c) (arr1 m c) (bOf ⟨n, h⟩) (n % 64 + 1)
  | 0, h => by
    have h0 : (⟨0, h⟩ : Fin cfg0.N).val % 64 = 0 := rfl
    have h1 : ¬(⟨0, h⟩ : Fin cfg0.N).val % 64 = 63 := by
      show ¬(0 : ℕ) % 64 = 63
      decide
    rw [outsAt0_A m c ⟨0, h⟩ h0 h1]
    dsimp only
    exact ⟨(sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩)).trans
        (upd0_step m c ⟨0, h⟩ _ (fill0 m c _)),
      (sout0_A_1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩)).trans
        (upd1_step m c ⟨0, h⟩ _ (fill1 m c _))⟩
  | n + 1, h => by
    have ih := inv c n (Nat.lt_of_succ_lt h)
    by_cases h0 : (⟨n + 1, h⟩ : Fin cfg0.N).val % 64 = 0
    · -- a batch's first point: the rows restart from the fill
      have h1 : ¬(⟨n + 1, h⟩ : Fin cfg0.N).val % 64 = 63 := by omega
      rw [outsAt0_A m c ⟨n + 1, h⟩ h0 h1]
      dsimp only
      have e0 : (⟨n + 1, h⟩ : Fin cfg0.N).val % 64 = 0 := h0
      have hs : (n + 1) % 64 + 1 = (⟨n + 1, h⟩ : Fin cfg0.N).val % 64 + 1 := rfl
      have hz : (⟨n + 1, h⟩ : Fin cfg0.N).val % 64 = 0 := h0
      refine ⟨(sout0_A_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)).trans
          (upd0_step m c ⟨n + 1, h⟩ _ ?_),
        (sout0_A_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)).trans
          (upd1_step m c ⟨n + 1, h⟩ _ ?_)⟩
      · rw [hz]; exact fill0 m c _
      · rw [hz]; exact fill1 m c _
    · have hb : bOf ⟨n, Nat.lt_of_succ_lt h⟩ = bOf ⟨n + 1, h⟩ := bOf_pred n h h0
      have hk : n % 64 + 1 = (⟨n + 1, h⟩ : Fin cfg0.N).val % 64 := step_pred n h0
      -- what the point before left, restated at this point's batch and step count
      have p0 : (outsAt0 m c ((⟨n + 1, h⟩ : Fin cfg0.N).val - 1) (Nat.lt_of_le_of_lt (Nat.sub_le _ _) (⟨n + 1, h⟩ : Fin cfg0.N).isLt)).2.2.1
          = acc12lt (arr0 m c) (arr1 m c) (bOf ⟨n + 1, h⟩) ((⟨n + 1, h⟩ : Fin cfg0.N).val % 64) := by
        rw [← hb, ← hk]; exact ih.1
      have p1 : (outsAt0 m c ((⟨n + 1, h⟩ : Fin cfg0.N).val - 1) (Nat.lt_of_le_of_lt (Nat.sub_le _ _) (⟨n + 1, h⟩ : Fin cfg0.N).isLt)).2.2.2
          = acc21lt (arr0 m c) (arr1 m c) (bOf ⟨n + 1, h⟩) ((⟨n + 1, h⟩ : Fin cfg0.N).val % 64) := by
        rw [← hb, ← hk]; exact ih.2
      by_cases h1 : (⟨n + 1, h⟩ : Fin cfg0.N).val % 64 = 63
      · -- a batch's last point
        rw [outsAt0_C m c ⟨n + 1, h⟩ h0 h1]
        dsimp only
        exact ⟨(sout0_C_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) _ _).trans
            (upd0_step m c ⟨n + 1, h⟩ _ p0),
          (sout0_C_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) _ _).trans
            (upd1_step m c ⟨n + 1, h⟩ _ p1)⟩
      · -- a middle point
        rw [outsAt0_B m c ⟨n + 1, h⟩ h0 h1]
        dsimp only
        exact ⟨(sout0_B_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) _ _).trans
            (upd0_step m c ⟨n + 1, h⟩ _ p0),
          (sout0_B_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) _ _).trans
            (upd1_step m c ⟨n + 1, h⟩ _ p1)⟩

/-- Before a batch's last point the rows hold the minima over the first 63 steps' pairs. -/
theorem prev_last (c : Dev nD) (t : Fin cfg0.N) (ht : t.val % 64 = 63) :
    (outsAt0 m c (t.val - 1) (Nat.lt_of_le_of_lt (Nat.sub_le _ _) t.isLt)).2.2.1
        = acc12lt (arr0 m c) (arr1 m c) (bOf t) (t.val % 64)
    ∧ (outsAt0 m c (t.val - 1) (Nat.lt_of_le_of_lt (Nat.sub_le _ _) t.isLt)).2.2.2
        = acc21lt (arr0 m c) (arr1 m c) (bOf t) (t.val % 64) := by
  obtain ⟨tv, hlt⟩ := t
  cases tv with
  | zero => exact absurd ht (by show ¬(0 : ℕ) % 64 = 63; decide)
  | succ n =>
    have h0 : ¬(n + 1) % 64 = 0 := by
      have : (n + 1) % 64 = 63 := ht
      omega
    have ih := inv m c n (Nat.lt_of_succ_lt hlt)
    have hb : bOf ⟨n, Nat.lt_of_succ_lt hlt⟩ = bOf ⟨n + 1, hlt⟩ := bOf_pred n hlt h0
    have hk : n % 64 + 1 = (⟨n + 1, hlt⟩ : Fin cfg0.N).val % 64 := step_pred n h0
    constructor
    · rw [← hb, ← hk]; exact ih.1
    · rw [← hb, ← hk]; exact ih.2

/-- After a batch's last step the first output block is the batch's row of the first result. -/
theorem out2_last (c : Dev nD) (t : Fin cfg0.N) (ht : t.val % 64 = 63) (n : Fin 8192) :
    ((outsAt0 m c t.val t.isLt).1 (ix3 (0 : Fin 1) (0 : Fin 1) n) : EReal) = G12 (arr0 m c) (arr1 m c) (ix2 (bOf t) n) := by
  have h0 : ¬t.val % 64 = 0 := by omega
  rw [outsAt0_C m c t h0 ht]
  dsimp only
  rw [out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr ht) (iblk m c 0 t) (iblk m c 1 t) _ _]
  rw [pay3_apply, upd0_step m c t _ (prev_last m c t ht).1, ht]
  exact acc12lt_full (arr0 m c) (arr1 m c) (bOf t) (ix2 (0 : Fin 1) n)

/-- And the second output block the batch's row of the second. -/
theorem out3_last (c : Dev nD) (t : Fin cfg0.N) (ht : t.val % 64 = 63) (n : Fin 8192) :
    ((outsAt0 m c t.val t.isLt).2.1 (ix3 (0 : Fin 1) (0 : Fin 1) n) : EReal) = G21 (arr0 m c) (arr1 m c) (ix2 (bOf t) n) := by
  have h0 : ¬t.val % 64 = 0 := by omega
  rw [outsAt0_C m c t h0 ht]
  dsimp only
  rw [out0_C_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr ht) (iblk m c 0 t) (iblk m c 1 t) _ _]
  rw [pay4_apply, upd1_step m c t _ (prev_last m c t ht).2, ht]
  exact acc21lt_full (arr0 m c) (arr1 m c) (bOf t) (ix2 (0 : Fin 1) n)

end Cert.KernelIdeal.Inv

end
-- ==== Proof.Final.lean ====
/-
  The two result arrays after the region and the program's result. Output block `b` (one batch's 8192 entries) is
  written back once, after the batch's last step, when the rows are complete: so the arrays end holding `G12` and
  `G21`, and the host lines after the region reshape them, take each one's mean and add the means.
-/
import proofs.«131622_j73160472920067_1_alg».proof.Proof.Inv
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Chamfer Cert.KernelIdeal.Blocks Cert.KernelIdeal.Inv

variable (m : (ℓ : Loc nD τ sig) → Buf (Elt Ideal) ℓ) (ρ : Dev nD → PrngReg)

/-- The first result as the [4, 1, 8192] array the region writes. -/
def out12 (c : Dev nD) : Vec Ideal S4x1x8192 .f32 := fun i => G12 (arr0 m c) (arr1 m c) (ix2 (i 0) (i 2))
/-- The second. -/
def out21 (c : Dev nD) : Vec Ideal S4x1x8192 .f32 := fun i => G21 (arr0 m c) (arr1 m c) (ix2 (i 0) (i 2))

/-- The block index of the two output windows at point `t`: batch `t / 64`, the one row, the one column block. -/
private theorem index2 : ∀ t : Fin grid0.N,
    win0_2.index t 0 = t.val / 64 ∧ win0_2.index t 1 = 0 ∧ win0_2.index t 2 = 0 := by
  decide +kernel
private theorem index3 : ∀ t : Fin grid0.N,
    win0_3.index t 0 = t.val / 64 ∧ win0_3.index t 1 = 0 ∧ win0_3.index t 2 = 0 := by
  decide +kernel

/-- What a batch's last point writes back for the first result is the batch's row of `G12`: entry `n` of the block is
    `G12` at `(t / 64, n)`, and the block sits at row `t / 64` of the [4, 1, 8192] array. -/
private theorem flushed2 (c : Dev nD) (t : Fin cfg0.N) (hf : (cfg0.win 2).flush t = true) :
    (dats m 0 c).flushed 2 t = ((cfg0.win 2).blk t).view.read (Elt Ideal) (out12 m c) := by
  have ht : t.val % 64 = 63 := (flush0_2 t).mp hf
  have hN : t.val < 256 := lt_of_lt_of_eq t.isLt N_eq
  obtain ⟨h0, h1, h2⟩ := index2 t
  show (cfg0.win 2).cut (grid0.coords t) ((dats m 0 c).after 2 t) = _
  rw [after0_2]
  funext y
  rw [View.read_apply]
  revert y
  show ∀ y : S1x1x8192.Idx, (outsAt0 m c t.val t.isLt).1 y = out12 m c (((cfg0.win 2).blk t).view.emb y)
  intro y
  obtain ⟨a0, a1, n, rfl⟩ : ∃ (a0 : Fin 1) (a1 : Fin 1) (n : Fin 8192), y = ix3 a0 a1 n := ⟨y 0, y 1, y 2, eq_ix3 y⟩
  obtain rfl : a0 = 0 := Subsingleton.elim _ _
  obtain rfl : a1 = 0 := Subsingleton.elim _ _
  refine (out2_last m c t ht n).trans ?_
  show G12 (arr0 m c) (arr1 m c) (ix2 (bOf t) n) = G12 (arr0 m c) (arr1 m c) (ix2 _ _)
  congr 1
  funext a
  apply Fin.ext
  match a with
  | ⟨0, _⟩ =>
    show t.val / 64 % 4 = win0_2.index t 0 * 1 + 1 * (0 : Fin 1).val
    rw [h0]; simp only [Fin.val_zero]; omega
  | ⟨1, _⟩ =>
    show n.val = win0_2.index t 2 * 8192 + 1 * n.val
    rw [h2]; omega

/-- Row `b` of the array is written back at point `64·b + 63`, so the four write-backs cover it: it ends at `G12`. -/
theorem final2 (c : Dev nD) : (dats m 0 c).arrAt 2 cfg0.N = out12 m c :=
  (dats m 0 c).arrAt_eq_of_cover 2 (out12 m c) (flushed2 m c) fun i => by
    have hb : (i 0 : Nat) < 4 := (i 0).isLt
    have hu : (i 1 : Nat) < 1 := (i 1).isLt
    have hn : (i 2 : Nat) < 8192 := (i 2).isLt
    have hN : cfg0.N = 256 := N_eq
    have htN : 64 * (i 0 : Nat) + 63 < cfg0.N := by omega
    refine ⟨⟨64 * (i 0 : Nat) + 63, htN⟩, (flush0_2 _).mpr (by show (64 * (i 0 : Nat) + 63) % 64 = 63; omega), ?_⟩
    obtain ⟨e0, e1, e2⟩ := index2 ⟨64 * (i 0 : Nat) + 63, htN⟩
    show i ∈ ((View.whole main_v0_0).slice (win0_2.rect ⟨64 * (i 0 : Nat) + 63, htN⟩)).set
    rw [View.set_slice_whole, Rect.mem_set_unit]
    intro a
    match a with
    | ⟨0, _⟩ =>
      show win0_2.index ⟨64 * (i 0 : Nat) + 63, htN⟩ 0 * 1 ≤ (i 0 : Nat)
        ∧ (i 0 : Nat) < win0_2.index ⟨64 * (i 0 : Nat) + 63, htN⟩ 0 * 1 + 1
      rw [e0]; show (64 * (i 0 : Nat) + 63) / 64 * 1 ≤ (i 0 : Nat) ∧ (i 0 : Nat) < (64 * (i 0 : Nat) + 63) / 64 * 1 + 1
      omega
    | ⟨1, _⟩ =>
      show win0_2.index ⟨64 * (i 0 : Nat) + 63, htN⟩ 1 * 1 ≤ (i 1 : Nat)
        ∧ (i 1 : Nat) < win0_2.index ⟨64 * (i 0 : Nat) + 63, htN⟩ 1 * 1 + 1
      rw [e1]; omega
    | ⟨2, _⟩ =>
      show win0_2.index ⟨64 * (i 0 : Nat) + 63, htN⟩ 2 * 8192 ≤ (i 2 : Nat)
        ∧ (i 2 : Nat) < win0_2.index ⟨64 * (i 0 : Nat) + 63, htN⟩ 2 * 8192 + 8192
      rw [e2]; omega

/-- The same for the second result and `G21`. -/
private theorem flushed3 (c : Dev nD) (t : Fin cfg0.N) (hf : (cfg0.win 3).flush t = true) :
    (dats m 0 c).flushed 3 t = ((cfg0.win 3).blk t).view.read (Elt Ideal) (out21 m c) := by
  have ht : t.val % 64 = 63 := (flush0_3 t).mp hf
  have hN : t.val < 256 := lt_of_lt_of_eq t.isLt N_eq
  obtain ⟨h0, h1, h2⟩ := index3 t
  show (cfg0.win 3).cut (grid0.coords t) ((dats m 0 c).after 3 t) = _
  rw [after0_3]
  funext y
  rw [View.read_apply]
  revert y
  show ∀ y : S1x1x8192.Idx, (outsAt0 m c t.val t.isLt).2.1 y = out21 m c (((cfg0.win 3).blk t).view.emb y)
  intro y
  obtain ⟨a0, a1, n, rfl⟩ : ∃ (a0 : Fin 1) (a1 : Fin 1) (n : Fin 8192), y = ix3 a0 a1 n := ⟨y 0, y 1, y 2, eq_ix3 y⟩
  obtain rfl : a0 = 0 := Subsingleton.elim _ _
  obtain rfl : a1 = 0 := Subsingleton.elim _ _
  refine (out3_last m c t ht n).trans ?_
  show G21 (arr0 m c) (arr1 m c) (ix2 (bOf t) n) = G21 (arr0 m c) (arr1 m c) (ix2 _ _)
  congr 1
  funext a
  apply Fin.ext
  match a with
  | ⟨0, _⟩ =>
    show t.val / 64 % 4 = win0_3.index t 0 * 1 + 1 * (0 : Fin 1).val
    rw [h0]; simp only [Fin.val_zero]; omega
  | ⟨1, _⟩ =>
    show n.val = win0_3.index t 2 * 8192 + 1 * n.val
    rw [h2]; omega

/-- Likewise the second array ends at `G21`. -/
theorem final3 (c : Dev nD) : (dats m 0 c).arrAt 3 cfg0.N = out21 m c :=
  (dats m 0 c).arrAt_eq_of_cover 3 (out21 m c) (flushed3 m c) fun i => by
    have hb : (i 0 : Nat) < 4 := (i 0).isLt
    have hu : (i 1 : Nat) < 1 := (i 1).isLt
    have hn : (i 2 : Nat) < 8192 := (i 2).isLt
    have hN : cfg0.N = 256 := N_eq
    have htN : 64 * (i 0 : Nat) + 63 < cfg0.N := by omega
    refine ⟨⟨64 * (i 0 : Nat) + 63, htN⟩, (flush0_3 _).mpr (by show (64 * (i 0 : Nat) + 63) % 64 = 63; omega), ?_⟩
    obtain ⟨e0, e1, e2⟩ := index3 ⟨64 * (i 0 : Nat) + 63, htN⟩
    show i ∈ ((View.whole main_v0_1).slice (win0_3.rect ⟨64 * (i 0 : Nat) + 63, htN⟩)).set
    rw [View.set_slice_whole, Rect.mem_set_unit]
    intro a
    match a with
    | ⟨0, _⟩ =>
      show win0_3.index ⟨64 * (i 0 : Nat) + 63, htN⟩ 0 * 1 ≤ (i 0 : Nat)
        ∧ (i 0 : Nat) < win0_3.index ⟨64 * (i 0 : Nat) + 63, htN⟩ 0 * 1 + 1
      rw [e0]; show (64 * (i 0 : Nat) + 63) / 64 * 1 ≤ (i 0 : Nat) ∧ (i 0 : Nat) < (64 * (i 0 : Nat) + 63) / 64 * 1 + 1
      omega
    | ⟨1, _⟩ =>
      show win0_3.index ⟨64 * (i 0 : Nat) + 63, htN⟩ 1 * 1 ≤ (i 1 : Nat)
        ∧ (i 1 : Nat) < win0_3.index ⟨64 * (i 0 : Nat) + 63, htN⟩ 1 * 1 + 1
      rw [e1]; omega
    | ⟨2, _⟩ =>
      show win0_3.index ⟨64 * (i 0 : Nat) + 63, htN⟩ 2 * 8192 ≤ (i 2 : Nat)
        ∧ (i 2 : Nat) < win0_3.index ⟨64 * (i 0 : Nat) + 63, htN⟩ 2 * 8192 + 8192
      rw [e2]; omega

/-- Dropping the unit axis of the written array gives the result itself. -/
theorem reshape12 (c : Dev nD) :
    shapeCast S4x8192 (out12 m c) shapeCasts_S4x1x8192_S4x8192 = G12 (arr0 m c) (arr1 m c) := by
  funext j
  refine (shapeCast_apply (out12 m c) shapeCasts_S4x1x8192_S4x8192 j (ix3 (j 0) (0 : Fin 1) (j 1)) ?_).trans ?_
  · rw [Shape.rowMajor_val_three, Shape.rowMajor_val_two]
    show ((j 0).val * 1 + 0) * 8192 + (j 1).val = (j 0).val * 8192 + (j 1).val
    omega
  · exact congrArg (G12 (arr0 m c) (arr1 m c)) (eq_ix2 j).symm

/-- The same for the second result. -/
theorem reshape21 (c : Dev nD) :
    shapeCast S4x8192 (out21 m c) shapeCasts_S4x1x8192_S4x8192 = G21 (arr0 m c) (arr1 m c) := by
  funext j
  refine (shapeCast_apply (out21 m c) shapeCasts_S4x1x8192_S4x8192 j (ix3 (j 0) (0 : Fin 1) (j 1)) ?_).trans ?_
  · rw [Shape.rowMajor_val_three, Shape.rowMajor_val_two]
    show ((j 0).val * 1 + 0) * 8192 + (j 1).val = (j 0).val * 8192 + (j 1).val
    omega
  · exact congrArg (G21 (arr0 m c) (arr1 m c)) (eq_ix2 j).symm

/-- What the lines after the region leave in the result buffer: the two means, added. -/
private theorem tail_v7 (c : Dev nD) :
    Pipeline.afterTail₀ cfgs (dats m) 0 (V0 m) [hostOps1] c main_v7
      = meanSum reducesTo_S4x8192_S_d0_1 h_S_ (G12 (arr0 m c) (arr1 m c)) (G21 (arr0 m c) (arr1 m c)) := by
  unfold Pipeline.afterTail₀
  show StableHlo.after hostOps1 _ (Proc.devRef .tc main_v7) = _
  after_results
  have hA2 : Pipeline.withArrays spec0 c (V0 m c) (fun w => (dats m 0 c).arrAt w cfg0.N) (Proc.devRef .tc main_v0_0)
      = out12 m c :=
    (Pipeline.withArrays_arr spec0 launch0.win.arr_inj c (V0 m c) (fun w => (dats m 0 c).arrAt w cfg0.N) 2).trans (final2 m c)
  have hA3 : Pipeline.withArrays spec0 c (V0 m c) (fun w => (dats m 0 c).arrAt w cfg0.N) (Proc.devRef .tc main_v0_1)
      = out21 m c :=
    (Pipeline.withArrays_arr spec0 launch0.win.arr_inj c (V0 m c) (fun w => (dats m 0 c).arrAt w cfg0.N) 3).trans (final3 m c)
  show meanSum reducesTo_S4x8192_S_d0_1 h_S_
      (shapeCast S4x8192 (Pipeline.withArrays spec0 c (V0 m c) (fun w => (dats m 0 c).arrAt w cfg0.N) (Proc.devRef .tc main_v0_0))
        shapeCasts_S4x1x8192_S4x8192)
      (shapeCast S4x8192 (Pipeline.withArrays spec0 c (V0 m c) (fun w => (dats m 0 c).arrAt w cfg0.N) (Proc.devRef .tc main_v0_1))
        shapeCasts_S4x1x8192_S4x8192) = _
  rw [hA2, hA3, reshape12, reshape21]

/-- The program's run, read: its result is the sum of the two results' means, the arguments unchanged. -/
theorem run : θ_run defs (onTc (τ := τ) (main (F := Ideal))) ⟨m, fun _ => 0, ρ⟩ fun r => ∀ c : Dev nD,
      r.2.mem ((c.tc : Thread nD τ).loc main_v7)
          = meanSum reducesTo_S4x8192_S_d0_1 h_S_
              (G12 (m ((c.tc : Thread nD τ).loc main_arg0)) (m ((c.tc : Thread nD τ).loc main_arg1)))
              (G21 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine (((h c).2 main_v7 (Pipeline.mem_restRefs_of main_v7 rfl (by decide))).trans (tail_v7 m c)).trans ?_
    rw [arr0_eq, arr1_eq]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Final

end
-- ==== Proof.RefValue.lean ====
/-
  The reference, read on the extended reals: its clamped squared distances are `dist` (it adds the cross term scaled
  by −2 where the other side subtracts it scaled by 2, and starts its sums of squares from the pattern of 0), its two
  minimum-reductions from the pattern of `+∞` are `G12` and `G21`, and its last lines are the means' sum.
-/
import proofs.«131622_j73160472920067_1_alg».proof.Proof.Gen.ReferenceIdeal.Read
import proofs.«131622_j73160472920067_1_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.Read Cert.Chamfer

/-- The first cloud's squared norm is read at the pair's row. -/
private theorem idx_sq1 (b : Fin 4) (n k : Fin 8192) (c : Fin 3) :
    idx_main_v1 (idx_main_v2 (idx_main_v9 (ix3 b n k))) c = ix3 b n c :=
  funext fun a => Fin.ext (by match a with | ⟨0, _⟩ => rfl | ⟨1, _⟩ => rfl | ⟨2, _⟩ => rfl)

/-- The second cloud's squared norm is read at the pair's column. -/
private theorem idx_sq2 (b : Fin 4) (n k : Fin 8192) (c : Fin 3) :
    idx_main_v4 (idx_main_v5 (idx_main_v11 (idx_main_v12 (ix3 b n k)))) c = ix3 b k c :=
  funext fun a => Fin.ext (by match a with | ⟨0, _⟩ => rfl | ⟨1, _⟩ => rfl | ⟨2, _⟩ => rfl)

/-- The inner product's left factor is the row's point. -/
private theorem idx_dotl (b : Fin 4) (n k : Fin 8192) (c : Fin 3) :
    lidx_main_v6 (ix3 b n k) c = ix3 b n c :=
  funext fun a => Fin.ext (by match a with | ⟨0, _⟩ => rfl | ⟨1, _⟩ => rfl | ⟨2, _⟩ => rfl)

/-- The inner product's right factor is the column's point. -/
private theorem idx_dotr (b : Fin 4) (n k : Fin 8192) (c : Fin 3) :
    ridx_main_v6 (ix3 b n k) c = ix3 b k c :=
  funext fun a => Fin.ext (by match a with | ⟨0, _⟩ => rfl | ⟨1, _⟩ => rfl | ⟨2, _⟩ => rfl)

theorem v15_apply (x0 x1 : (⟨S4x8192x3, .f32⟩ : BufTy).Contents (Elt Ideal)) (b : Fin 4) (n k : Fin 8192) :
    (val_main_v15 (F := Ideal) x0 x1 (ix3 b n k) : EReal) = dist x0 x1 b n k := by
  -- Read every operation at the pair `(b, n, k)`: the row's squared norm, plus −2 times the inner product, plus the
  -- column's squared norm, clamped at the pattern of 0.
  rw [val_main_v15_apply, val_main_v13_apply, val_main_v10_apply, val_main_v9_apply, val_main_v2_apply, val_main_v1_apply,
    val_main_v8_apply, val_main_v7_apply, val_main_v6_apply, val_main_v12_apply, val_main_v11_apply, val_main_v5_apply,
    val_main_v4_apply, val_main_v14_apply]
  simp only [idx_sq1, idx_sq2, idx_dotl, idx_dotr, Ideal.maximumf_def, Ideal.addf_def, Ideal.mulf_def, Ideal.ofBits_def,
    val_main_v0_apply, val_main_v3_apply, val_main_cst_apply, val_main_cst_0_apply, val_main_cst_1_apply, val_main_cst_2_apply,
    Ideal.ofBits_zero_f32, zero_add]
  -- Each sum of squares starts from 0; adding the cross term scaled by −2 is subtracting it scaled by 2.
  rw [Chamfer.ofBits_neg_two, Chamfer.add_neg_two_mul]
  unfold Chamfer.dist Chamfer.sq Chamfer.dot
  rfl

/-- The two minimum-reductions' shape facts, as the facts that name the inserted coordinate. -/
private theorem red_col : S4x8192x8192.Reduces [2] S4x8192 := by decide
private theorem red_row : S4x8192x8192.Reduces [1] S4x8192 := by decide

/-- Over result index `j`, the pair with column `k` inserted is `(j₀, j₁, k)`. -/
private theorem lift_col (j : S4x8192.Idx) (k : Fin 8192) : red_col.lift j k = ix3 (n0 := 4) (n1 := 8192) (n2 := 8192) (j 0) (j 1) k :=
  funext fun a => Fin.ext (by match a with | ⟨0, _⟩ => rfl | ⟨1, _⟩ => rfl | ⟨2, _⟩ => rfl)

/-- Over result index `j`, the pair with row `k` inserted is `(j₀, k, j₁)`. -/
private theorem lift_row (j : S4x8192.Idx) (k : Fin 8192) : red_row.lift j k = ix3 (n0 := 4) (n1 := 8192) (n2 := 8192) (j 0) k (j 1) :=
  funext fun a => Fin.ext (by match a with | ⟨0, _⟩ => rfl | ⟨1, _⟩ => rfl | ⟨2, _⟩ => rfl)

theorem v16_eq (x0 x1 : (⟨S4x8192x3, .f32⟩ : BufTy).Contents (Elt Ideal)) :
    val_main_v16 (F := Ideal) x0 x1 = G12 x0 x1 := by
  unfold val_main_v16
  funext j
  -- The reduction at `j` is the fold of `min` over the columns, from the pattern of `+∞`, which is `⊤`.
  rw [Host.reduce_eq_fold_single FloatOps.minimumf _ _ reducesTo_S4x8192x8192_S4x8192_d2 red_col h_S_ j]
  show Finset.fold min (val_main_cst_3 (F := Ideal) (Shape.Idx.first h_S_))
    (fun k : Fin 8192 => val_main_v15 (F := Ideal) x0 x1 (red_col.lift j k)) Finset.univ = _
  rw [val_main_cst_3_apply, Ideal.ofBits_def, Chamfer.ofBits_pinf, Chamfer.fold_min_top_eq_inf]
  unfold G12
  exact Finset.inf_congr rfl fun k _ => by rw [lift_col]; exact v15_apply x0 x1 (j 0) (j 1) k

theorem v17_eq (x0 x1 : (⟨S4x8192x3, .f32⟩ : BufTy).Contents (Elt Ideal)) :
    val_main_v17 (F := Ideal) x0 x1 = G21 x0 x1 := by
  unfold val_main_v17
  funext j
  -- The reduction at `j` is the fold of `min` over the rows, from the pattern of `+∞`, which is `⊤`.
  rw [Host.reduce_eq_fold_single FloatOps.minimumf _ _ reducesTo_S4x8192x8192_S4x8192_d1 red_row h_S_ j]
  show Finset.fold min (val_main_cst_4 (F := Ideal) (Shape.Idx.first h_S_))
    (fun k : Fin 8192 => val_main_v15 (F := Ideal) x0 x1 (red_row.lift j k)) Finset.univ = _
  rw [val_main_cst_4_apply, Ideal.ofBits_def, Chamfer.ofBits_pinf, Chamfer.fold_min_top_eq_inf]
  unfold G21
  exact Finset.inf_congr rfl fun k _ => by rw [lift_row]; exact v15_apply x0 x1 (j 0) k (j 1)

theorem v22_eq (x0 x1 : (⟨S4x8192x3, .f32⟩ : BufTy).Contents (Elt Ideal)) :
    val_main_v22 (F := Ideal) x0 x1 = meanSum reducesTo_S4x8192_S_d0_1 h_S_ (G12 x0 x1) (G21 x0 x1) := by
  -- The last lines sum each result from the pattern of 0, divide by the pattern of 32768 and add the two quotients.
  unfold val_main_v22 val_main_v19 val_main_v21 val_main_v18 val_main_v20 val_main_cst_5 val_main_cst_6 val_main_cst_7 val_main_cst_8
  rw [v16_eq, v17_eq]
  unfold meanSum
  rfl

end Cert.ReferenceIdeal.RefValue

end
-- ==== Proof.lean ====
/-
  Bidirectional Chamfer distance: a tiled sweep with two running-minimum rows against the whole-array formula.

  Both programs compute, for two clouds of 8192 points in each of 4 batches, the mean over all points of the first
  cloud of the clamped squared distance to the nearest point of the second, plus the same with the clouds exchanged.
  The reference forms all 8192 × 8192 distances of a batch and takes minima along each axis. The kernel sweeps the
  8 × 8 tiles of 1024 × 1024 pairs of a batch, keeping for each point the minimum over the tiles seen so far, starting
  from +∞ at a batch's first tile and writing the rows out after its last. On the extended reals a minimum does not
  depend on the order or grouping in which it is taken, subtracting twice the inner product is adding minus twice it,
  and a sum of three squares does not depend on starting from zero: so the two results agree entry by entry, for any
  inputs, and the same closing lines (two means and a sum) give the same number.

  The frames of the two kernel programs are the generated ones; the reference's is its generated run. The ideal pass
  rewrote nothing, so there is nothing to preserve.
-/
import proofs.«131622_j73160472920067_1_alg».proof.Defs
import proofs.«131622_j73160472920067_1_alg».proof.Proof.Gen.Kernel
import proofs.«131622_j73160472920067_1_alg».proof.Proof.Gen.Kernel.Skeleton
import proofs.«131622_j73160472920067_1_alg».proof.Proof.Gen.Kernel.Launch
import proofs.«131622_j73160472920067_1_alg».proof.Proof.Gen.Kernel.Points
import proofs.«131622_j73160472920067_1_alg».proof.Proof.Gen.Kernel.Frame
import proofs.«131622_j73160472920067_1_alg».proof.Proof.Gen.KernelIdeal
import proofs.«131622_j73160472920067_1_alg».proof.Proof.Gen.KernelIdeal.Skeleton
import proofs.«131622_j73160472920067_1_alg».proof.Proof.Gen.KernelIdeal.Launch
import proofs.«131622_j73160472920067_1_alg».proof.Proof.Gen.KernelIdeal.Points
import proofs.«131622_j73160472920067_1_alg».proof.Proof.Gen.KernelIdeal.Frame
import proofs.«131622_j73160472920067_1_alg».proof.Proof.Gen.ReferenceIdeal
import proofs.«131622_j73160472920067_1_alg».proof.Proof.Gen.Pre_finite_inputs
import proofs.«131622_j73160472920067_1_alg».proof.Proof.Gen.ReferenceIdeal.Run
import proofs.«131622_j73160472920067_1_alg».proof.Proof.Gen.ReferenceIdeal.Read
import proofs.«131622_j73160472920067_1_alg».proof.Proof.Final
import proofs.«131622_j73160472920067_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the means' sum of `G12` and `G21` of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.v22_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
